-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x128 : Shape := ⟨2, ![1024, 128]⟩
abbrev S128 : Shape := ⟨1, ![128]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x1024 .f32) (main_arg1 : FVec F S1024x128 .f32) (main_arg2 : FVec F S128 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x1024 : Shape := ⟨2, ![32768, 1024]⟩
abbrev S1024x128 : Shape := ⟨2, ![1024, 128]⟩
abbrev S128 : Shape := ⟨1, ![128]⟩
abbrev S1x128 : Shape := ⟨2, ![1, 128]⟩
abbrev S32768x128 : Shape := ⟨2, ![32768, 128]⟩
abbrev S4096x1024 : Shape := ⟨2, ![4096, 1024]⟩
abbrev S4096x128 : Shape := ⟨2, ![4096, 128]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x128, .f32⟩
  | .hbm, ⟨2, _⟩ => ⟨S128, .f32⟩
  | .hbm, ⟨3, _⟩ => ⟨S1x128, .f32⟩
  | .hbm, ⟨4, _⟩ => ⟨S32768x128, .f32⟩
  | .local _ .vmem, ⟨0, _⟩ => ⟨S4096x1024, .f32⟩
  | .local _ .vmem, ⟨1, _⟩ => ⟨S4096x1024, .f32⟩
  | .local _ .vmem, ⟨2, _⟩ => ⟨S1024x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x1024_S1024x1024_0_0 : ∀ a, (![0, 0] : Fin 2 → Nat) a + S1024x1024.size a ≤ S4096x1024.size a
  h_S1024x1024 : 0 < S1024x1024.numel
  broadcasts_S1x128_S1024x128 : S1x128.Broadcasts S1024x128
  inb_S4096x128_S1024x128_0_0 : ∀ a, (![0, 0] : Fin 2 → Nat) a + S1024x128.size a ≤ S4096x128.size a
  inb_S4096x1024_S1024x1024_1024_0 : ∀ a, (![1024, 0] : Fin 2 → Nat) a + S1024x1024.size a ≤ S4096x1024.size a
  inb_S4096x128_S1024x128_1024_0 : ∀ a, (![1024, 0] : Fin 2 → Nat) a + S1024x128.size a ≤ S4096x128.size a
  inb_S4096x1024_S1024x1024_2048_0 : ∀ a, (![2048, 0] : Fin 2 → Nat) a + S1024x1024.size a ≤ S4096x1024.size a
  inb_S4096x128_S1024x128_2048_0 : ∀ a, (![2048, 0] : Fin 2 → Nat) a + S1024x128.size a ≤ S4096x128.size a
  inb_S4096x1024_S1024x1024_3072_0 : ∀ a, (![3072, 0] : Fin 2 → Nat) a + S1024x1024.size a ≤ S4096x1024.size a
  inb_S4096x128_S1024x128_3072_0 : ∀ a, (![3072, 0] : Fin 2 → Nat) a + S1024x128.size a ≤ S4096x128.size a
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S32768x1024.size a
  hwx0_0 : ∀ i : grid0.Coords, EltTy.bits .f32 = 32 ∨ (Rect.block (s := S32768x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S32768x128.size a
  hwx0_3 : ∀ i : grid0.Coords, EltTy.bits .f32 = 32 ∨ (Rect.block (s := S32768x128) S4096x128.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x128 : Shape := ⟨2, ![1024, 128]⟩
abbrev S128 : Shape := ⟨1, ![128]⟩
abbrev S_ : Shape := ⟨0, ![]⟩
abbrev S32768x128 : Shape := ⟨2, ![32768, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x128, .f32⟩
  | .hbm, ⟨2, _⟩ => ⟨S128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x128, .f32⟩
  | .hbm, ⟨7, _⟩ => ⟨S1024x128, .f32⟩
  | .hbm, ⟨8, _⟩ => ⟨S_, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S32768x128, .f32⟩
  | .hbm, ⟨34, _⟩ => ⟨S1x128, .f32⟩
  | .hbm, ⟨35, _⟩ => ⟨S32768x128, .f32⟩
  | .hbm, ⟨36, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v6 : Ref sig .tc := ⟨.hbm, 25, rfl⟩
abbrev main_cst_5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_6 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  bcast_S_S1024x128 : S_.BroadcastsInDim S1024x128 (![] : Fin 0 → Fin S1024x128.rank)
  bcast_S_S128 : S_.BroadcastsInDim S128 (![] : Fin 0 → Fin S128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  dot_S32768x1024_S1024x128_S32768x128_1_0_0_1_n_n_wf : DotDims.WF S32768x1024 S1024x128 S32768x128 [1] [0] [0] [1] [] []

variable [Facts₀]

def dot_S32768x1024_S1024x128_S32768x128_1_0_0_1_n_n : DotDims S32768x1024 S1024x128 S32768x128 where
  lhsContracting := [1]
  rhsContracting := [0]
  lhsNonContracting := [0]
  rhsNonContracting := [1]
  lhsBatch := []
  rhsBatch := []
  wf := dot_S32768x1024_S1024x128_S32768x128_1_0_0_1_n_n_wf

class Facts : Prop extends Facts₀ where

variable [Facts]
-- ==== Proof.Spec.lean ====
/-
  The layer this certificate is about, as one function of its three arrays.

  A weight (or a bias entry) w is first clipped to [-1, 1], scaled by 127, rounded to the nearest integer (ties to even)
  and scaled back by 127: the nearest of the 255 levels k/127, |k| ≤ 127. The layer's output at row r, column n is the
  sum over k of x[r, k] times the snapped W[k, n], plus the snapped b[n].

  Both programs compute exactly this, in this order of operations (a sum of products, then one addition), so nothing
  here asks whether an entry is finite: no term is moved across a sum.
-/
import Idealize.ShloMosaic.PureOps.Ideal.Laws
import Idealize.ShloMosaic.Lib.ValueIdx

noncomputable section

namespace Cert.QuantLinear

open Idealize.ShloMosaic Idealize.ShloMosaic.ValueIdx

/-- One entry snapped to the grid of 127 levels per unit on [-1, 1]: min(1, max(-1, w)) · 127, rounded half to even,
    divided by 127. The three constants are the binary32 words of -1, 1 and 127. -/
def quant (w : Ideal .f32) : Ideal .f32 :=
  FloatOps.divf
    (FloatOps.roundeven
      (FloatOps.mulf
        (FloatOps.minimumf (FloatOps.ofBits (F := Ideal) .f32 0x3F800000#32)
          (FloatOps.maximumf (FloatOps.ofBits (F := Ideal) .f32 0xBF800000#32) w))
        (FloatOps.ofBits (F := Ideal) .f32 0x42FE0000#32)))
    (FloatOps.ofBits (F := Ideal) .f32 0x42FE0000#32)

/-- A block of rows of the layer: for R rows of x, the R × 128 array whose entry (r, n) is
    Σ_k x[r, k] · quant W[k, n] + quant b[0, n], the bias being given as a 1 × 128 row. -/
def rows {R : Nat} (x : FVec Ideal ⟨2, ![R, 1024]⟩ .f32) (W : FVec Ideal ⟨2, ![1024, 128]⟩ .f32)
    (b : FVec Ideal ⟨2, ![1, 128]⟩ .f32) : FVec Ideal ⟨2, ![R, 128]⟩ .f32 :=
  fun j => FloatOps.addf (∑ k : Fin 1024, x (ix2 (j 0) k) * quant (W (ix2 k (j 1))))
    (quant (b (ix2 (0 : Fin 1) (j 1))))

/-- THE LAYER on the whole arrays: entry (r, n) of the 32768 × 128 result is Σ_k x[r, k] · quant W[k, n] + quant b[n]. -/
def layer (x : FVec Ideal ⟨2, ![32768, 1024]⟩ .f32) (W : FVec Ideal ⟨2, ![1024, 128]⟩ .f32)
    (b : FVec Ideal ⟨1, ![128]⟩ .f32) : FVec Ideal ⟨2, ![32768, 128]⟩ .f32 :=
  fun j => FloatOps.addf (∑ k : Fin 1024, x (ix2 (j 0) k) * quant (W (ix2 k (j 1)))) (quant (b (ix1 (j 1))))

/-- The layer is its row blocks with the bias laid out as a 1 × 128 row. -/
theorem layer_eq_rows (x : FVec Ideal ⟨2, ![32768, 1024]⟩ .f32) (W : FVec Ideal ⟨2, ![1024, 128]⟩ .f32)
    (b : FVec Ideal ⟨1, ![128]⟩ .f32) (b2 : FVec Ideal ⟨2, ![1, 128]⟩ .f32)
    (hb : ∀ n : Fin 128, b2 (ix2 (0 : Fin 1) n) = b (ix1 n)) :
    layer x W b = rows x W b2 := by
  funext j
  obtain ⟨p, q, rfl⟩ : ∃ (p : Fin 32768) (q : Fin 128), j = ix2 p q := ⟨j 0, j 1, eq_ix2 j⟩
  show FloatOps.addf _ (quant (b (ix1 q))) = FloatOps.addf _ (quant (b2 (ix2 (0 : Fin 1) q)))
  rw [hb]

end Cert.QuantLinear

end
-- ==== Proof.RefSide.lean ====
/-
  The reference computes the layer.

  Its program is a chain of whole-array operations: clip W to [-1, 1], multiply by 127, round half to even, divide by 127
  (and the same for b); then one matrix product of x with the snapped weights, and the snapped bias broadcast along the
  rows and added. Read at an index (r, n), stage by stage, that is Σ_k x[r, k] · quant W[k, n] + quant b[n].
-/
import proofs.«427435_j68985764708477_3_alg».proof.Proof.Gen.ReferenceIdeal.Read
import proofs.«427435_j68985764708477_3_alg».proof.Proof.Spec

noncomputable section

namespace Cert.QuantLinear.Reference

open Idealize.ShloMosaic Idealize.ShloMosaic.ValueIdx Cert.ReferenceIdeal Cert.ReferenceIdeal.Read Cert.QuantLinear

/-- The snapped-weights stage at an index is the snapped weight there: the clip bounds and the scale are scalar
    constants broadcast to every index, and the host's rounding and quotient are the exact ones. -/
theorem weights_apply (W : FVec Ideal S1024x128 .f32) (i : S1024x128.Idx) :
    val_main_v5 (F := Ideal) W i = quant (W i) := rfl

/-- The snapped-bias stage at an index is the snapped bias entry there. -/
theorem bias_apply (b : FVec Ideal S128 .f32) (i : S128.Idx) :
    val_main_v11 (F := Ideal) b i = quant (b i) := rfl

/-- THE REFERENCE'S RESULT IS THE LAYER: at (r, n) the product stage is the sum over k of x[r, k] times the snapped
    weight at (k, n); the two broadcasts of the bias read entry n; the last stage adds them. -/
theorem result_eq (x : FVec Ideal S32768x1024 .f32) (W : FVec Ideal S1024x128 .f32) (b : FVec Ideal S128 .f32) :
    val_main_v15 (F := Ideal) x W b = layer x W b := by
  funext j
  obtain ⟨p, q, rfl⟩ : ∃ (p : Fin 32768) (q : Fin 128), j = ix2 p q := ⟨j 0, j 1, eq_ix2 j⟩
  have hl : ∀ k : Fin 1024, lidx_main_v12 (ix2 p q) k = ix2 p k := fun k =>
    funext fun a => Fin.ext (by match a with | ⟨0, _⟩ => rfl | ⟨1, _⟩ => rfl)
  have hr : ∀ k : Fin 1024, ridx_main_v12 (ix2 p q) k = ix2 k q := fun k =>
    funext fun a => Fin.ext (by match a with | ⟨0, _⟩ => rfl | ⟨1, _⟩ => rfl)
  have hb : idx_main_v13 (idx_main_v14 (ix2 p q)) = ix1 q :=
    funext fun a => Fin.ext (by match a with | ⟨0, _⟩ => rfl)
  rw [val_main_v15_apply, val_main_v12_apply, val_main_v14_apply, val_main_v13_apply, hb, bias_apply]
  simp only [hl, hr, weights_apply]
  rfl

end Cert.QuantLinear.Reference

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Payload.lean ====
/-
  What the kernel's body leaves in the output block, as one function of the three input blocks.

  The body works on a block of 4096 rows of x in four chunks of 1024 rows. It snaps the whole weight block and the
  1 × 128 bias row once, then for each chunk multiplies the chunk of x by the snapped weights (a product into a zero
  accumulator), adds the snapped bias row broadcast down the 1024 rows, and stores the 1024 × 128 result at the
  chunk's rows of the output block. The narrowing of x and of the snapped weights to bf16 changes nothing over the
  extended reals. So entry (r, n) of the output block, r in chunk r / 1024, is
  Σ_k x[r, k] · quant W[k, n] + quant b[0, n]: the row-block form of the layer.
-/
import proofs.«427435_j68985764708477_3_alg».proof.Proof.Gen.KernelIdeal.Frame
import proofs.«427435_j68985764708477_3_alg».proof.Proof.Spec
import proofs.«427435_j68985764708477_3_alg».proof.Proof.LibMatmul
import Idealize.ShloMosaic.Lib.Pipeline.Value

noncomputable section

namespace Cert.QuantLinear.Kernel

open Idealize.ShloMosaic Idealize.ShloMosaic.ValueIdx Cert.KernelIdeal Cert.KernelIdeal.Gen Cert.QuantLinear

/-- The snapped weight block at an index is the snapped weight there (the final narrowing is the identity). -/
theorem snapW_apply (v0 : Vec Ideal S1024x128 .f32) (i : S1024x128.Idx) :
    k0_pay3 (F := Ideal) v0 i = quant (v0 i) := rfl

/-- The snapped bias row at an index is the snapped bias entry there (the cast of the row to its own shape is the
    identity). -/
theorem snapB_apply (v11 : Vec Ideal S1x128 .f32) (i : S1x128.Idx) :
    k0_pay4 (F := Ideal) v11 i = quant (v11 i) := by
  unfold k0_pay4
  simp only [shapeCast_self]
  rfl

/-- ONE CHUNK: the product of a 1024 × 1024 chunk of x (narrowed) with a 1024 × 128 right operand into the zero
    accumulator, plus a 1 × 128 row broadcast down the rows, read at (p, q): Σ_k chunk[p, k] · right[k, q] + row[0, q]. -/
theorem chunk_apply (xc : Vec Ideal S1024x1024 .f32) (wq : FVec Ideal S1024x128 .bf16) (bq : FVec Ideal S1x128 .f32)
    (p : Fin 1024) (q : Fin 128) :
    addf (matmul dot_S1024x1024_S1024x128_S1024x128_1_0_0_1_n_n none (truncf .bf16 xc bitsLt_bf16_f32) wq
        (constant S1024x128 .f32 0x00000000#32)) (broadcastTo S1024x128 bq broadcasts_S1x128_S1024x128) (ix2 p q)
      = FloatOps.addf (∑ k : Fin 1024, xc (ix2 p k) * wq (ix2 k q)) (bq (ix2 (0 : Fin 1) q)) := by
  show FloatOps.addf _ (broadcastTo S1024x128 bq broadcasts_S1x128_S1024x128 (ix2 p q)) = _
  rw [broadcastTo_apply bq broadcasts_S1x128_S1024x128 (ix2 p q) (ix2 (0 : Fin 1) q) (fun a => by
    match a with
    | ⟨0, _⟩ => rfl
    | ⟨1, _⟩ => rfl)]
  exact congrArg (fun z => FloatOps.addf z (bq (ix2 (0 : Fin 1) q)))
    (Cert.Matmul.matmul_plain_apply none (truncf .bf16 xc bitsLt_bf16_f32) wq p q)

/-- The zero offsets of a whole-buffer access, however they are spelt. -/
theorem zero_offsets : (![0, 0] : Fin 2 → Nat) = fun _ => 0 := funext fun a => by fin_cases a <;> rfl

/-- ONE STORED PIECE. The chunk of x at rows o … o + 1023 of the 4096-row block, multiplied by the snapped weights, plus
    the snapped bias row, read at a local index of the piece, is the row-block form of the layer at the index of the
    output block the piece's rectangle (rows o … o + 1023, every column) sends it to: local row p is block row o + p,
    and the columns agree. -/
theorem piece_apply (o : Nat)
    (inbX : ∀ a, (![o, 0] : Fin 2 → Nat) a + S1024x1024.size a ≤ S4096x1024.size a)
    (inbO : ∀ a, (![o, 0] : Fin 2 → Nat) a + S1024x128.size a ≤ S4096x128.size a)
    (x0 : Vec Ideal S4096x1024 .f32) (x1 : Vec Ideal S1024x128 .f32) (x2 : Vec Ideal S1x128 .f32) (y : S1024x128.Idx) :
    addf (matmul dot_S1024x1024_S1024x128_S1024x128_1_0_0_1_n_n none
        (truncf .bf16 (View.ld x0 (Rect.unit (s := S4096x1024) ![o, 0] S1024x1024.size inbX)) bitsLt_bf16_f32) (k0_pay3 x1)
        (constant S1024x128 .f32 0x00000000#32)) (broadcastTo S1024x128 (k0_pay4 x2) broadcasts_S1x128_S1024x128) y
      = rows (R := 4096) x0 x1 x2 ((Rect.unit (s := S4096x128) ![o, 0] S1024x128.size inbO).emb y) := by
  obtain ⟨p, q, rfl⟩ : ∃ (p : Fin 1024) (q : Fin 128), y = ix2 p q := ⟨y 0, y 1, eq_ix2 y⟩
  rw [chunk_apply, snapB_apply]
  simp only [snapW_apply]
  have hq : ((Rect.unit (s := S4096x128) ![o, 0] S1024x128.size inbO).emb (ix2 p q)) 1 = q :=
    Fin.ext (by show 0 + 1 * q.val = q.val; omega)
  have hx : ∀ k : Fin 1024, (Rect.unit (s := S4096x1024) ![o, 0] S1024x1024.size inbX).idx (ix2 p k)
      = ix2 (((Rect.unit (s := S4096x128) ![o, 0] S1024x128.size inbO).emb (ix2 p q)) 0) k := fun k =>
    funext fun a => Fin.ext (by
      match a with
      | ⟨0, _⟩ => rfl
      | ⟨1, _⟩ => show 0 + 1 * k.val = k.val; omega)
  unfold rows
  rw [hq]
  simp only [View.ld, hx]
  rfl

/-- THE OUTPUT BLOCK. Its four stores tile it by rows, and each stored piece is the row-block form of the layer on
    its rows: so the block the body leaves is that one function of the three input blocks. -/
theorem block_eq (x0 : Vec Ideal S4096x1024 .f32) (x1 : Vec Ideal S1024x128 .f32) (x2 : Vec Ideal S1x128 .f32) :
    out0_3 (F := Ideal) x0 x1 x2 = rows (R := 4096) x0 x1 x2 := by
  funext y
  unfold out0_3
  simp only [View.ld_unit_zero (S := S1024x128) zero_offsets, View.ld_unit_zero (S := S1x128) zero_offsets]
  refine View.canon_apply_of_pieces (Val := Elt Ideal) (S := S4096x128) (e := .f32) (rows (R := 4096) x0 x1 x2) _ ?_ y
    (cover0_3 _ _ _ _ y)
  intro pc hpc
  simp only [List.mem_cons, List.not_mem_nil, or_false] at hpc
  rcases hpc with rfl | rfl | rfl | rfl
  · exact fun x => piece_apply 3072 inb_S4096x1024_S1024x1024_3072_0 inb_S4096x128_S1024x128_3072_0 x0 x1 x2 x
  · exact fun x => piece_apply 2048 inb_S4096x1024_S1024x1024_2048_0 inb_S4096x128_S1024x128_2048_0 x0 x1 x2 x
  · exact fun x => piece_apply 1024 inb_S4096x1024_S1024x1024_1024_0 inb_S4096x128_S1024x128_1024_0 x0 x1 x2 x
  · exact fun x => piece_apply 0 inb_S4096x1024_S1024x1024_0_0 inb_S4096x128_S1024x128_0_0 x0 x1 x2 x

end Cert.QuantLinear.Kernel

end
-- ==== Proof.Array.lean ====
/-
  From the blocks to the whole array.

  The grid has 8 points. Point t takes rows 4096·t … 4096·t + 4095 of x (every column), the whole weight array and
  the whole 1 × 128 bias row, and writes back rows 4096·t … 4096·t + 4095 of the result. The body leaves in the output
  block the row-block form of the layer on its input blocks; since x's block is those rows of x and the other two
  blocks are whole arrays, that is the same rows of the row-block form of the layer on the whole arrays. The 8 blocks
  cover all 32768 rows (row r is in block r / 4096), so the result array ends as that one function of the arrays.
-/
import proofs.«427435_j68985764708477_3_alg».proof.Proof.Gen.KernelIdeal.Value
import proofs.«427435_j68985764708477_3_alg».proof.Proof.Payload
import Idealize.ShloMosaic.Lib.StableHlo.Run

noncomputable section

namespace Cert.QuantLinear.Kernel

open Idealize.ShloMosaic Idealize.ShloMosaic.TcCoe Idealize.ShloMosaic.ValueIdx Idealize.SL.Sem
open Cert.KernelIdeal Cert.KernelIdeal.Gen Cert.QuantLinear
open Idealize.ShloMosaic.Pipeline (Dat)

variable (m : (ℓ : Loc nD τ sig) → Buf (Elt Ideal) ℓ) (ρ : Dev nD → PrngReg)

/-- The three arrays as the region finds them, at their literal types: x, W, and the bias as a 1 × 128 row. -/
abbrev xArr (c : Dev nD) : FVec Ideal S32768x1024 .f32 := V m c main_arg0
abbrev wArr (c : Dev nD) : FVec Ideal S1024x128 .f32 := V m c main_arg1
abbrev bRow (c : Dev nD) : FVec Ideal S1x128 .f32 := V m c main_v0

/-- The result array the kernel is to leave: the row-block form of the layer on the whole arrays. -/
abbrev target (c : Dev nD) : FVec Ideal S32768x128 .f32 := rows (R := 32768) (xArr m c) (wArr m c) (bRow m c)

/-- The index maps, decided over the 8 points: x's block and the result's block are block t of the rows and the one
    block of the columns; the weights and the bias row are always their one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- ROWS OF ROWS. If a 4096-row block of x is rows 4096·T … of x, then the row-block form of the layer on the block,
    at local row p, is the row-block form on all of x at row 4096·T + p: the sum over k only reads that row of x. -/
theorem rows_of_block (X : FVec Ideal S32768x1024 .f32) (W : FVec Ideal S1024x128 .f32) (B : FVec Ideal S1x128 .f32)
    (xb : FVec Ideal S4096x1024 .f32) (T : Nat)
    (hx : ∀ (p : Fin 4096) (k : Fin 1024) (r : Fin 32768), r.val = T * 4096 + p.val → xb (ix2 p k) = X (ix2 r k))
    (y : S4096x128.Idx) (i : S32768x128.Idx) (h0 : (i 0).val = T * 4096 + (y 0).val) (h1 : (i 1).val = (y 1).val) :
    rows (R := 4096) xb W B y = rows (R := 32768) X W B i := by
  obtain ⟨p, q, rfl⟩ : ∃ (p : Fin 4096) (q : Fin 128), y = ix2 p q := ⟨y 0, y 1, eq_ix2 y⟩
  obtain ⟨r, q', rfl⟩ : ∃ (r : Fin 32768) (q' : Fin 128), i = ix2 r q' := ⟨i 0, i 1, eq_ix2 i⟩
  have hq : q' = q := Fin.ext h1
  have hx' : ∀ k : Fin 1024, xb (ix2 p k) = X (ix2 r k) := fun k => hx p k r h0
  rw [hq]
  show FloatOps.addf (∑ k : Fin 1024, xb (ix2 p k) * quant (W (ix2 k q))) (quant (B (ix2 (0 : Fin 1) q)))
    = FloatOps.addf (∑ k : Fin 1024, X (ix2 r k) * quant (W (ix2 k q))) (quant (B (ix2 (0 : Fin 1) q)))
  simp only [hx']

/-- WHAT POINT t WRITES BACK is block t of the target. -/
theorem flushed_eq (c : Dev nD) (t : Fin cfg0.N) :
    (dats m 0 c).flushed 3 t = ((cfg0.win 3).blk t).view.read (Elt Ideal) (target m c) := by
  rw [Cert.KernelIdeal.Value.flushed3, block_eq (iblk m c 0 t) (iblk m c 1 t) (iblk m c 2 t)]
  obtain ⟨e00, e01, e10, e11, e20, e21, e30, e31⟩ := index_facts t
  have hw : iblk m c 1 t = wArr m c := by
    funext y
    show V m c main_arg1 (((cfg0.win 1).blk t).view.emb y) = V m c main_arg1 y
    refine congrArg (V m c main_arg1) (funext fun a => Fin.ext ?_)
    match a with
    | ⟨0, _⟩ => show win0_1.index t (0 : Fin 2) * 1024 + 1 * (y 0).val = (y 0).val; omega
    | ⟨1, _⟩ => show win0_1.index t (1 : Fin 2) * 128 + 1 * (y 1).val = (y 1).val; omega
  have hb : iblk m c 2 t = bRow m c := by
    funext y
    show V m c main_v0 (((cfg0.win 2).blk t).view.emb y) = V m c main_v0 y
    refine congrArg (V m c main_v0) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [hw, hb]
  funext j
  show rows (R := 4096) (iblk m c 0 t) (wArr m c) (bRow m c) j
    = rows (R := 32768) (xArr m c) (wArr m c) (bRow m c) (((cfg0.win 3).blk t).view.emb j)
  refine rows_of_block (xArr m c) (wArr m c) (bRow m c) (iblk m c 0 t) t.val ?_ j _ ?_ ?_
  · intro p k r hr
    show V m c main_arg0 (((cfg0.win 0).blk t).view.emb (ix2 p k)) = V m c main_arg0 (ix2 r k)
    refine congrArg (V m c main_arg0) (funext fun a => Fin.ext ?_)
    match a with
    | ⟨0, _⟩ => show win0_0.index t (0 : Fin 2) * 4096 + 1 * p.val = r.val; omega
    | ⟨1, _⟩ => show win0_0.index t (1 : Fin 2) * 1024 + 1 * k.val = k.val; omega
  · show win0_3.index t (0 : Fin 2) * 4096 + 1 * (j 0).val = t.val * 4096 + (j 0).val; omega
  · show win0_3.index t (1 : Fin 2) * 128 + 1 * (j 1).val = (j 1).val; omega

/-- An index of the result array is in point t's block iff its row is among that block's 4096 rows. -/
theorem mem_blk (t : Fin cfg0.N) (i : S32768x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v1).slice (win0_3.rect t)).set ↔ _
  rw [View.set_slice_whole, Rect.mem_set_unit]
  exact Iff.rfl

/-- THE COVER: row r of the result is in the block of point r / 4096. -/
theorem cover (i : S32768x128.Idx) :
    ∃ t : Fin cfg0.N, (cfg0.win 3).flush t = true ∧ i ∈ ((cfg0.win 3).blk t).view.set := by
  have hi0 : (i 0).val < 32768 := (i 0).isLt
  have hi1 : (i 1).val < 128 := (i 1).isLt
  let t : Fin cfg0.N := ⟨(i 0).val / 4096, by show (i 0).val / 4096 < 8; omega⟩
  obtain ⟨-, -, -, -, -, -, e30, e31⟩ := index_facts t
  have ht : t.val = (i 0).val / 4096 := rfl
  refine ⟨t, flush0_3 t, ?_⟩
  rw [mem_blk]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 128 ≤ (i 1).val ∧ (i 1).val < win0_3.index t (1 : Fin 2) * 128 + 128
    omega

/-- THE RESULT ARRAY after the run is the target. -/
theorem final (c : Dev nD) : (dats m 0 c).arrAt 3 cfg0.N = target m c :=
  (dats m 0 c).arrAt_eq_of_cover 3 (target m c) (fun t _ => flushed_eq m c t) cover

/-! ## The arrays as launched -/

/-- x and W reach the region as launched: no host operation writes them. -/
theorem xArr_eq (c : Dev nD) : xArr m c = m ((c : Thread nD τ).loc main_arg0) := V_main_arg0 m c
theorem wArr_eq (c : Dev nD) : wArr m c = m ((c : Thread nD τ).loc main_arg1) := V_main_arg1 m c

/-- The one host operation before the region lays the 128 bias entries out as a 1 × 128 row, in row-major order. -/
theorem bRow_eq (c : Dev nD) :
    (V m c main_v0 : S1x128.Idx → Ideal .f32)
      = shapeCast S1x128 (m ((c : Thread nD τ).loc main_arg2)) shapeCasts_S128_S1x128 := by
  dsimp only [V, hostOps0]
  after_results
  rfl

/-- So entry (0, n) of the row is entry n of the bias. -/
theorem bRow_apply (c : Dev nD) (n : Fin 128) :
    bRow m c (ix2 (0 : Fin 1) n) = m ((c : Thread nD τ).loc main_arg2) (ix1 n) := by
  show (V m c main_v0 : S1x128.Idx → Ideal .f32) (ix2 (0 : Fin 1) n) = _
  rw [bRow_eq]
  exact (shapeCast_addUnit_apply ![128] (m ((c : Thread nD τ).loc main_arg2)) shapeCasts_S128_S1x128 (ix2 (0 : Fin 1) n)).trans
    (congrArg (m ((c : Thread nD τ).loc main_arg2)) (funext fun a => by match a with | ⟨0, _⟩ => rfl))

/-- The target is the layer on the arrays as launched. -/
theorem target_eq (c : Dev nD) :
    target m c = layer (m ((c : Thread nD τ).loc main_arg0)) (m ((c : Thread nD τ).loc main_arg1))
      (m ((c : Thread nD τ).loc main_arg2)) :=
  (layer_eq_rows (xArr m c) (wArr m c) (m ((c : Thread nD τ).loc main_arg2)) (bRow m c) (bRow_apply m c)).symm.trans
    (by rw [xArr_eq, wArr_eq])

/-- THE KERNEL'S RUN: every weakly fair execution terminates with the result array at the layer of the argument
    arrays, and the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (target_eq m c)), (h c).2⟩)
    (Cert.KernelIdeal.Value.run_blocks m ρ)

end Cert.QuantLinear.Kernel

end
-- ==== Proof.lean ====
/-
  A dense layer with weights and bias snapped to 127 levels per unit: out = x · quant(W) + quant(b), for x of 32768 × 1024,
  W of 1024 × 128 and b of 128 entries, where quant(w) = round(clip(w, -1, 1) · 127) / 127 with ties to even.

  THE KERNEL walks x in 8 blocks of 4096 rows. At each block it snaps the whole W and the bias (laid out as a 1 × 128 row)
  again, and for each of four chunks of 1024 rows forms the product of the chunk with the snapped weights into a zero
  accumulator, adds the snapped bias row to every row, and stores the chunk of the result. It narrows x and the snapped
  weights to bf16 before the product; over the extended reals a change of format is the identity. THE REFERENCE snaps W
  and b once, forms one product of all of x with the snapped weights, and adds the snapped bias to every row.

  Over the extended reals both results are, at row r and column n, the sum over k of x[r, k] · quant W[k, n], plus
  quant b[n]: the same sum of the same products followed by the same one addition, whatever block or chunk row r falls
  in. No term is moved across a sum and nothing is cancelled, so the equality holds for every input and the
  precondition (finite inputs) is not used. The two programs round with the same rule and divide with the same exact
  quotient, and the three constants (-1, 1, 127) are the same binary32 words on both sides, so they are never evaluated.

  The modules: Spec (quant, the layer, and its row-block form), RefSide (the reference's stages read at an index are the
  layer), Payload (the block the kernel's body leaves is the row-block form of the layer on its input blocks), Array
  (the 8 blocks are rows of one array, they cover it, and the arrays reach the region as launched but for the bias,
  which a host reshape lays out as a row), and here the five claims. The kernel's idealization rewrote nothing, so
  the preservation claim has no conjunct.
-/
import proofs.«427435_j68985764708477_3_alg».proof.Defs
import proofs.«427435_j68985764708477_3_alg».proof.Proof.Gen.Kernel
import proofs.«427435_j68985764708477_3_alg».proof.Proof.Gen.Kernel.Skeleton
import proofs.«427435_j68985764708477_3_alg».proof.Proof.Gen.Kernel.Launch
import proofs.«427435_j68985764708477_3_alg».proof.Proof.Gen.Kernel.Points
import proofs.«427435_j68985764708477_3_alg».proof.Proof.Gen.Kernel.Frame
import proofs.«427435_j68985764708477_3_alg».proof.Proof.Gen.KernelIdeal
import proofs.«427435_j68985764708477_3_alg».proof.Proof.Gen.KernelIdeal.Skeleton
import proofs.«427435_j68985764708477_3_alg».proof.Proof.Gen.KernelIdeal.Launch
import proofs.«427435_j68985764708477_3_alg».proof.Proof.Gen.KernelIdeal.Points
import proofs.«427435_j68985764708477_3_alg».proof.Proof.Gen.KernelIdeal.Frame
import proofs.«427435_j68985764708477_3_alg».proof.Proof.Gen.ReferenceIdeal
import proofs.«427435_j68985764708477_3_alg».proof.Proof.Gen.Pre_finite_inputs
import proofs.«427435_j68985764708477_3_alg».proof.Proof.Gen.KernelIdeal.Value
import proofs.«427435_j68985764708477_3_alg».proof.Proof.Gen.ReferenceIdeal.Run
import proofs.«427435_j68985764708477_3_alg».proof.Proof.Gen.ReferenceIdeal.Read
import proofs.«427435_j68985764708477_3_alg».proof.Proof.RefSide
import proofs.«427435_j68985764708477_3_alg».proof.Proof.Array
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of whole-array operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the layer of their (agreeing) arguments in the result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.QuantLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.QuantLinear.Reference.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
